-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S2 .f32) (main_v63 : IVec S_ 1) (main_v67 : IVec S_ 1) : IVec S_ 1 :=
  let main_v68 : IVec S_ 1 := andi main_v63 main_v67
  let main_v69 : FVec F S2 .f32 := Host.absf main_arg16
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg13 : FVec F S128x64 .f32) (main_arg14 : FVec F S64 .f32) (main_arg15 : FVec F S64x2 .f32) (main_arg16 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x2 .f32 := Host.absf main_arg15
  let main_cst_24 : FVec F S_ .f32 := constant S_ .f32 0x7F800000#32
  let main_v65 : FVec F S64x2 .f32 := broadcastInDim S64x2 ![] bcast_S_S64x2 main_cst_24
  let main_v66 : IVec S64x2 1 := cmpf .olt main_v64 main_v65
  let main_c_25 : IVec S_ 1 := constantI S_ 1 1#1
  let main_v67 : IVec S_ 1 := (fun x v => Host.reduce IntOp.andi x v reducesTo_S64x2_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S256x128 .f32) (main_arg12 : FVec F S128 .f32) (main_arg13 : FVec F S128x64 .f32) (main_arg14 : FVec F S64 .f32) (main_arg15 : FVec F S64x2 .f32) (main_arg16 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S256x128 .f32) (main_arg12 : FVec F S128 .f32) (main_arg13 : FVec F S128x64 .f32) (main_arg14 : FVec F S64 .f32) (main_arg15 : FVec F S64x2 .f32) (main_arg16 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S256x128 .f32) (main_arg12 : FVec F S128 .f32) (main_arg13 : FVec F S128x64 .f32) (main_arg14 : FVec F S64 .f32) (main_arg15 : FVec F S64x2 .f32) (main_arg16 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S5000x128 : Shape := ⟨2, ![5000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S800000x2 : Shape := ⟨2, ![800000, 2]⟩
abbrev S4000x128 : Shape := ⟨2, ![4000, 128]⟩
abbrev S4000x2 : Shape := ⟨2, ![4000, 2]⟩
abbrev S4000x64 : Shape := ⟨2, ![4000, 64]⟩
abbrev S1x64 : Shape := ⟨2, ![1, 64]⟩
abbrev S1x2 : Shape := ⟨2, ![1, 2]⟩

abbrev nBuf : Space → Nat
  | .hbm => 39
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x2, .f32⟩
  | .hbm, ⟨16, _⟩ => ⟨S2, .f32⟩
  | .hbm, ⟨17, _⟩ => ⟨S50000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S128x128, .f32⟩
  | .hbm, ⟨37, _⟩ => ⟨S128x128, .f32⟩
  | .hbm, ⟨38, _⟩ => ⟨S800000x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S128x128, .f32⟩
  | .local _ .vmem, ⟨18, _⟩ => ⟨S128, .f32⟩
  | .local _ .vmem, ⟨19, _⟩ => ⟨S128x64, .f32⟩
  | .local _ .vmem, ⟨20, _⟩ => ⟨S64, .f32⟩
  | .local _ .vmem, ⟨21, _⟩ => ⟨S64x2, .f32⟩
  | .local _ .vmem, ⟨22, _⟩ => ⟨S2, .f32⟩
  | .local _ .vmem, ⟨23, _⟩ => ⟨S4000x2, .f32⟩
  | .local _ .vmem, ⟨24, _⟩ => ⟨S4000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S128x128_S128x128 : S128x128.ShapeCasts S128x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  dot_S4000x64_S64x2_S4000x2_1_0_0_1_n_n_wf : DotDims.WF S4000x64 S64x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x2.size a ≤ S64x2.size a
  hwx1_7 : ∀ i : grid1.Coords, EltTy.bits .f32 = 32 ∨ (Rect.block (s := S64x2) S64x2.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S2.size a ≤ S2.size a
  hwx1_8 : ∀ i : grid1.Coords, EltTy.bits .f32 = 32 ∨ (Rect.block (s := S2) S2.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x2.size a ≤ S800000x2.size a
  hwx1_9 : ∀ i : grid1.Coords, EltTy.bits .f32 = 32 ∨ (Rect.block (s := S800000x2) S4000x2.size (cc1_transform_9 i) (hinb1_9 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v7) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S64x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v17) S4000x2.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S800000x64 : Shape := ⟨2, ![800000, 64]⟩
abbrev S1x64 : Shape := ⟨2, ![1, 64]⟩
abbrev S800000x2 : Shape := ⟨2, ![800000, 2]⟩
abbrev S1x2 : Shape := ⟨2, ![1, 2]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x2, .f32⟩
  | .hbm, ⟨16, _⟩ => ⟨S2, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .f32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S800000x256, .f32⟩
  | .hbm, ⟨70, _⟩ => ⟨S800000x128, .f32⟩
  | .hbm, ⟨71, _⟩ => ⟨S1x128, .f32⟩
  | .hbm, ⟨72, _⟩ => ⟨S800000x128, .f32⟩
  | .hbm, ⟨73, _⟩ => ⟨S800000x128, .f32⟩
  | .hbm, ⟨74, _⟩ => ⟨S_, .f32⟩
  | .hbm, ⟨75, _⟩ => ⟨S800000x128, .f32⟩
  | .hbm, ⟨76, _⟩ => ⟨S800000x128, .f32⟩
  | .hbm, ⟨77, _⟩ => ⟨S800000x64, .f32⟩
  | .hbm, ⟨78, _⟩ => ⟨S1x64, .f32⟩
  | .hbm, ⟨79, _⟩ => ⟨S800000x64, .f32⟩
  | .hbm, ⟨80, _⟩ => ⟨S800000x64, .f32⟩
  | .hbm, ⟨81, _⟩ => ⟨S_, .f32⟩
  | .hbm, ⟨82, _⟩ => ⟨S800000x64, .f32⟩
  | .hbm, ⟨83, _⟩ => ⟨S800000x64, .f32⟩
  | .hbm, ⟨84, _⟩ => ⟨S800000x2, .f32⟩
  | .hbm, ⟨85, _⟩ => ⟨S1x2, .f32⟩
  | .hbm, ⟨86, _⟩ => ⟨S800000x2, .f32⟩
  | .hbm, ⟨87, _⟩ => ⟨S800000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call2_cst : Ref sig .tc := ⟨.hbm, 35, rfl⟩
abbrev main_call2_v0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst : Ref sig .tc := ⟨.hbm, 44, rfl⟩
abbrev main_v21 : Ref sig .tc := ⟨.hbm, 45, rfl⟩
abbrev main_v22 : Ref sig .tc := ⟨.hbm, 46, rfl⟩
abbrev main_cst_0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c : Ref sig .tc := ⟨.hbm, 51, rfl⟩
abbrev main_v26 : Ref sig .tc := ⟨.hbm, 52, rfl⟩
abbrev main_v27 : Ref sig .tc := ⟨.hbm, 53, rfl⟩
abbrev main_c_1 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_2 : Ref sig .tc := ⟨.hbm, 60, rfl⟩
abbrev main_v33 : Ref sig .tc := ⟨.hbm, 61, rfl⟩
abbrev main_v34 : Ref sig .tc := ⟨.hbm, 62, rfl⟩
abbrev main_c_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call3_cst : Ref sig .tc := ⟨.hbm, 74, rfl⟩
abbrev main_call3_v0 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call4_cst : Ref sig .tc := ⟨.hbm, 81, rfl⟩
abbrev main_call4_v0 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x64_S800000x64_1_0_0_1_n_n_wf : DotDims.WF S800000x128 S128x64 S800000x64 [1] [0] [0] [1] [] []
  dot_S800000x64_S64x2_S800000x2_1_0_0_1_n_n_wf : DotDims.WF S800000x64 S64x2 S800000x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x2_S800000x2_1_0_0_1_n_n : DotDims S800000x64 S64x2 S800000x2 where
  lhsContracting := [1]
  rhsContracting := [0]
  lhsNonContracting := [0]
  rhsNonContracting := [1]
  lhsBatch := []
  rhsBatch := []
  wf := dot_S800000x64_S64x2_S800000x2_1_0_0_1_n_n_wf

class Facts : Prop extends Facts₀ where

variable [Facts]
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.Spec.lean ====
/-
  The two dense stages of the edge classifier, one row at a time over the extended reals.

  Node stage. A node's feature row  v  (128 numbers) goes through three rectified affine layers,
  x = relu(relu(relu(v·W0 + b0)·W1 + b1)·W2 + b2)  (`hidden`), and is then gated entry by entry:
  out_c = σ((x·Wg + bg)_c) · x_c  with  σ(t) = 1 / (1 + e^(−t))  (`gate`). Every step acts on a row by itself, so the
  stage applied to an [R, 128] array is the row function applied to each of its rows (`nodeArr`), whatever R is: a
  tile of rows of the array gives the same rows of the result.

  Readout stage. An edge has two feature rows, its source node's  xs  and its destination node's  xd . The first
  readout layer multiplies their concatenation [xs, xd] (256 numbers) by a [256, 128] weight matrix  R0 ; splitting the
  sum over the 256 contraction positions at 128 gives  xs·R0[0:128] + xd·R0[128:256]  (`affine_append`): a sum over
  Fin (128 + 128) is the sum over the first 128 positions plus the sum over the last 128, which holds in any
  commutative additive monoid and needs no finiteness. Then two more layers,  relu(·R1 + r1)  and  ·R2 + r2
  (`readRow`, `readArr`).
-/
import proofs.«133304_j80633716015170_1_alg».proof.Proof.LibDense
import Mathlib.Algebra.BigOperators.Fin

noncomputable section

open scoped BigOperators

namespace Cert.Spec

open Idealize.ShloMosaic Idealize.ShloMosaic.ValueIdx Cert.Dense

/-- An [R, C] array of extended reals. -/
abbrev Mat (R C : ℕ) := FVec Ideal ⟨2, ![R, C]⟩ .f32
/-- A length-C vector of extended reals. -/
abbrev Row (C : ℕ) := FVec Ideal ⟨1, ![C]⟩ .f32

/-- Row r of a matrix, as a function of the column. -/
def rowOf {R C : ℕ} (X : Mat R C) (r : Fin R) : Fin C → EReal := fun k => X (ix2 r k)

/-- Three rectified affine layers on one row. -/
def hidden (W0 : Mat 128 128) (b0 : Row 128) (W1 : Mat 128 128) (b1 : Row 128) (W2 : Mat 128 128) (b2 : Row 128)
    (v : Fin 128 → EReal) : Fin 128 → EReal :=
  relu (affine W2 b2 (relu (affine W1 b1 (relu (affine W0 b0 v)))))

/-- The gate: each entry of x scaled by the logistic function of the same entry of x·Wg + bg. -/
def gate (Wg : Mat 128 128) (bg : Row 128) (x : Fin 128 → EReal) : Fin 128 → EReal :=
  fun c => Ideal.logistic (affine Wg bg x c) * x c

/-- The node stage on one row. -/
def nodeRow (W0 : Mat 128 128) (b0 : Row 128) (W1 : Mat 128 128) (b1 : Row 128) (W2 : Mat 128 128) (b2 : Row 128)
    (Wg : Mat 128 128) (bg : Row 128) (v : Fin 128 → EReal) : Fin 128 → EReal :=
  gate Wg bg (hidden W0 b0 W1 b1 W2 b2 v)

/-- The node stage on an array of R rows: row by row. -/
def nodeArr {R : ℕ} (h : Mat R 128) (W0 : Mat 128 128) (b0 : Row 128) (W1 : Mat 128 128) (b1 : Row 128)
    (W2 : Mat 128 128) (b2 : Row 128) (Wg : Mat 128 128) (bg : Row 128) : Mat R 128 :=
  fun i => nodeRow W0 b0 W1 b1 W2 b2 Wg bg (rowOf h (i 0)) (i 1)

/-- The first readout layer before its rectifier, with the weight matrix given as its two halves:
    (xs·Rs + xd·Rd) + r0 . -/
def pairAffine (Rs Rd : Mat 128 128) (r0 : Row 128) (xs xd : Fin 128 → EReal) : Fin 128 → EReal :=
  fun c => ((∑ k : Fin 128, xs k * Rs (ix2 k c)) + (∑ k : Fin 128, xd k * Rd (ix2 k c))) + r0 (ix1 c)

/-- The readout stage on one edge: from the two node rows to the 2 class scores. -/
def readRow (Rs Rd : Mat 128 128) (r0 : Row 128) (R1 : Mat 128 64) (r1 : Row 64) (R2 : Mat 64 2) (r2 : Row 2)
    (xs xd : Fin 128 → EReal) : Fin 2 → EReal :=
  affine R2 r2 (relu (affine R1 r1 (relu (pairAffine Rs Rd r0 xs xd))))

/-- The readout stage on R edges: row by row. -/
def readArr {R : ℕ} (Xs Xd : Mat R 128) (Rs Rd : Mat 128 128) (r0 : Row 128) (R1 : Mat 128 64) (r1 : Row 64)
    (R2 : Mat 64 2) (r2 : Row 2) : Mat R 2 :=
  fun i => readRow Rs Rd r0 R1 r1 R2 r2 (rowOf Xs (i 0)) (rowOf Xd (i 0)) (i 1)

/-- Rows 0 … 127 of a [256, 128] matrix. -/
def topHalf (R0 : Mat 256 128) : Mat 128 128 :=
  fun i => R0 (ix2 ⟨(i 0).val, by have := idx2_lt0 i; omega⟩ (i 1))
/-- Rows 128 … 255 of a [256, 128] matrix. -/
def botHalf (R0 : Mat 256 128) : Mat 128 128 :=
  fun i => R0 (ix2 ⟨128 + (i 0).val, by have := idx2_lt0 i; omega⟩ (i 1))

/-- The whole computation: the node stage on all N nodes, its rows picked per edge by `gs` (source ends) and `gd`
    (destination ends), and the readout stage on the pairs. The two row pickers are parameters: both programs pick
    rows by the same gather, which this file never opens. -/
def edgeScores {N E : ℕ} (gs gd : Mat N 128 → Mat E 128) (h : Mat N 128)
    (W0 : Mat 128 128) (b0 : Row 128) (W1 : Mat 128 128) (b1 : Row 128) (W2 : Mat 128 128) (b2 : Row 128)
    (Wg : Mat 128 128) (bg : Row 128) (R0 : Mat 256 128) (r0 : Row 128) (R1 : Mat 128 64) (r1 : Row 64)
    (R2 : Mat 64 2) (r2 : Row 2) : Mat E 2 :=
  readArr (gs (nodeArr h W0 b0 W1 b1 W2 b2 Wg bg)) (gd (nodeArr h W0 b0 W1 b1 W2 b2 Wg bg))
    (topHalf R0) (botHalf R0) r0 R1 r1 R2 r2

/-- The affine layer of a 256-wide row that is the concatenation of two 128-wide rows is the sum of the two halves'
    products plus the bias: the sum over the 256 positions split at 128. -/
theorem affine_append (R0 : Mat 256 128) (r0 : Row 128) (xs xd : Fin 128 → EReal) (w : Fin 256 → EReal)
    (hl : ∀ k : Fin 128, w ⟨k.val, by have := k.isLt; omega⟩ = xs k)
    (hr : ∀ k : Fin 128, w ⟨128 + k.val, by have := k.isLt; omega⟩ = xd k) :
    affine R0 r0 w = pairAffine (topHalf R0) (botHalf R0) r0 xs xd := by
  funext c
  unfold affine pairAffine
  congr 1
  -- split the sum over Fin (128 + 128) into its first and last 128 positions
  have hs : (∑ k : Fin 256, w k * R0 (ix2 k c))
      = (∑ k : Fin 128, w (Fin.castAdd 128 k) * R0 (ix2 (Fin.castAdd 128 k) c))
        + (∑ k : Fin 128, w (Fin.natAdd 128 k) * R0 (ix2 (Fin.natAdd 128 k) c)) :=
    Fin.sum_univ_add (fun k : Fin (128 + 128) => w k * R0 (ix2 k c))
  rw [hs]
  congr 1
  · refine Finset.sum_congr rfl fun k _ => ?_
    rw [show w (Fin.castAdd 128 k) = xs k from hl k]
    rfl
  · refine Finset.sum_congr rfl fun k _ => ?_
    rw [show w (Fin.natAdd 128 k) = xd k from hr k]
    rfl

end Cert.Spec

end
-- ==== Proof.NodeBody.lean ====
/-
  The node kernel's arithmetic on one tile, read at an entry.

  The body loads a tile  x0  of 5000 node rows and the four weight matrices and bias rows, and stores
  σ(x3·Wg + bg) · x3  where  x3 = relu(relu(relu(x0·W0 + b0)·W1 + b1)·W2 + b2) . Each layer is a product into a zero
  accumulator of operands narrowed to bf16 (the identity on the extended reals), a bias row stretched over the 5000
  rows, and a maximum with zero; so at the entry (p, c) it is the rectified affine map of row p of its input
  (`layer_row`). Chaining the three layers and the gate, the stored tile at (p, c) is the node stage of row p of  x0  at
  column c (`stored_apply`): the tile's rows do not interact.
-/
import proofs.«133304_j80633716015170_1_alg».proof.Proof.Gen.KernelIdeal.Skeleton
import proofs.«133304_j80633716015170_1_alg».proof.Proof.Spec

noncomputable section

namespace Cert.KernelIdeal.NodeBody

open Idealize.ShloMosaic Idealize.ShloMosaic.ValueIdx Cert.KernelIdeal Cert.KernelIdeal.Gen
open Cert.Dense Cert.Spec

/-- The product's dimension numbers: contract the left operand's columns with the right operand's rows, no batch. -/
abbrev dd := dot_S5000x128_S128x128_S5000x128_1_0_0_1_n_n

/-- One rectified layer on a tile, along row p: the rectified affine map of row p of the input. -/
theorem layer_row (X : FVec Ideal S5000x128 .f32) (W : Vec Ideal S128x128 .f32) (b : Vec Ideal S128 .f32) (p : Fin 5000) :
    (fun c : Fin 128 =>
      maximumf (addf (matmul dd none (truncf .bf16 X Facts₀.bitsLt_bf16_f32) (truncf .bf16 W Facts₀.bitsLt_bf16_f32)
            (constant S5000x128 .f32 0x00000000#32))
          (broadcastTo S5000x128 (shapeCast S1x128 b Facts₀.shapeCasts_S128_S1x128) Facts₀.broadcasts_S1x128_S5000x128))
        (broadcast S5000x128 (Scalar.ofBits (F := Ideal) .f32 0x00000000#32)) (ix2 p c))
      = relu (affine W b (fun k => X (ix2 p k))) := by
  funext c
  rw [kernel_relu_apply]
  exact congrArg (fun t => max t 0)
    (kernel_affine_apply dd rfl rfl rfl rfl rfl rfl Facts₀.bitsLt_bf16_f32 Facts₀.shapeCasts_S128_S1x128 Facts₀.broadcasts_S1x128_S5000x128 X W b p c)

/-- The third layer's output (the value the gate scales), along row p. -/
theorem hidden_row (x0 : Vec Ideal S5000x128 .f32) (x1 : Vec Ideal S128x128 .f32) (x2 : Vec Ideal S128 .f32)
    (x3 : Vec Ideal S128x128 .f32) (x4 : Vec Ideal S128 .f32) (x5 : Vec Ideal S128x128 .f32) (x6 : Vec Ideal S128 .f32)
    (p : Fin 5000) :
    (fun c : Fin 128 => k0_pay2 x0 x1 x2 x3 x4 x5 x6 (ix2 p c)) = hidden x1 x2 x3 x4 x5 x6 (fun k => x0 (ix2 p k)) :=
  (layer_row _ x5 x6 p).trans (congrArg (fun v => relu (affine x5 x6 v))
    ((layer_row _ x3 x4 p).trans (congrArg (fun v => relu (affine x3 x4 v)) (layer_row x0 x1 x2 p))))

/-- The stored tile at (p, c): the node stage of row p of the loaded tile, at column c. -/
theorem stored_apply (x0 : Vec Ideal S5000x128 .f32) (x1 : Vec Ideal S128x128 .f32) (x2 : Vec Ideal S128 .f32)
    (x3 : Vec Ideal S128x128 .f32) (x4 : Vec Ideal S128 .f32) (x5 : Vec Ideal S128x128 .f32) (x6 : Vec Ideal S128 .f32)
    (x7 : Vec Ideal S128x128 .f32) (x8 : Vec Ideal S128 .f32) (p : Fin 5000) (c : Fin 128) :
    k0_pay1 (k0_pay2 x0 x1 x2 x3 x4 x5 x6) (k0_pay3 x0 x1 x2 x3 x4 x5 x6 x7) (k0_pay4 x8) (ix2 p c)
      = nodeRow x1 x2 x3 x4 x5 x6 x7 x8 (fun k => x0 (ix2 p k)) c := by
  -- the gate's argument at (p, c): the affine map of row p of the third layer's output
  have hg : addf (k0_pay3 x0 x1 x2 x3 x4 x5 x6 x7) (k0_pay4 x8) (ix2 p c)
      = affine x7 x8 (fun k => k0_pay2 x0 x1 x2 x3 x4 x5 x6 (ix2 p k)) c :=
    kernel_affine_apply dd rfl rfl rfl rfl rfl rfl Facts₀.bitsLt_bf16_f32 Facts₀.shapeCasts_S128_S1x128 Facts₀.broadcasts_S1x128_S5000x128
      (k0_pay2 x0 x1 x2 x3 x4 x5 x6) x7 x8 p c
  have hh := hidden_row x0 x1 x2 x3 x4 x5 x6 p
  show Ideal.logistic (addf (k0_pay3 x0 x1 x2 x3 x4 x5 x6 x7) (k0_pay4 x8) (ix2 p c)) * k0_pay2 x0 x1 x2 x3 x4 x5 x6 (ix2 p c) = _
  rw [hg, hh]
  exact congrArg (fun t => Ideal.logistic (affine x7 x8 (hidden x1 x2 x3 x4 x5 x6 fun k => x0 (ix2 p k)) c) * t) (congrFun hh c)

end Cert.KernelIdeal.NodeBody

end
-- ==== Proof.NodeRegion.lean ====
/-
  The node region's result array after its run: the node stage of the arrays the region finds.

  The region walks 10 tiles of 5000 node rows. At tile t it reads rows 5000·t … 5000·t + 4999 of the feature array
  and the whole of every weight array, and writes back the same rows of the result. The stored tile at (p, c) is the
  node stage of row p of the loaded tile (the body's arithmetic, row by row), and row p of the loaded tile is row
  5000·t + p of the feature array; so what tile t writes back is rows 5000·t … of the node stage of the whole array
  (`flushed_eq`). Row r lies in tile r / 5000, so the tiles cover the result array (`cover`), which therefore ends
  holding the node stage of the whole feature array (`final`).
-/
import proofs.«133304_j80633716015170_1_alg».proof.Proof.Gen.KernelIdeal.Frame
import proofs.«133304_j80633716015170_1_alg».proof.Proof.NodeBody
import Idealize.ShloMosaic.Lib.Pipeline.Value

set_option maxRecDepth 16384

noncomputable section

namespace Cert.KernelIdeal.NodeRegion

open Idealize.ShloMosaic Idealize.ShloMosaic.TcCoe Idealize.ShloMosaic.ValueIdx Idealize.SL.Sem
open Cert.KernelIdeal Cert.KernelIdeal.Gen Cert.Spec
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The node stage of the arrays the region finds: what its result array ends holding. -/
abbrev nodes (c : Dev nD) : S50000x128.Idx → Elt Ideal .f32 :=
  nodeArr (V c main_arg0) (V c main_arg3) (V c main_arg4) (V c main_arg5) (V c main_arg6) (V c main_arg7)
    (V c main_arg8) (V c main_arg9) (V c main_arg10)

/-- The printed index maps over the grid: the feature and result windows are at row-tile t, every weight window at
    its one block. -/
theorem idx_facts : ∀ t : Fin cfg0.N,
    win0_0.index t (0 : Fin 2) = t.val
    ∧ win0_0.index t (1 : Fin 2) = 0
    ∧ win0_9.index t (0 : Fin 2) = t.val
    ∧ win0_9.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0 :=
  (by decide +kernel : ∀ t : Fin grid0.N, _)

/-- Window 1's block is its whole array at every point (its block index is constantly zero). -/
theorem whole1 (c : Dev nD) (t : Fin cfg0.N) : (iblk0 V c 1 t : S128x128.Idx → Elt Ideal .f32) = V c main_arg3 := by
  funext y
  show V c main_arg3 (((cfg0.win 1).blk t).view.emb y) = V c main_arg3 y
  refine congrArg (V c main_arg3) (funext fun a => Fin.ext ?_)
  match a with
    | ⟨0, _⟩ => show win0_1.index t (0 : Fin 2) * 128 + 1 * (y 0).val = (y 0).val; have := (idx_facts t).2.2.2.2.1; omega
    | ⟨1, _⟩ => show win0_1.index t (1 : Fin 2) * 128 + 1 * (y 1).val = (y 1).val; have := (idx_facts t).2.2.2.2.2.1; omega

/-- Window 2's block is its whole array at every point (its block index is constantly zero). -/
theorem whole2 (c : Dev nD) (t : Fin cfg0.N) : (iblk0 V c 2 t : S128.Idx → Elt Ideal .f32) = V c main_arg4 := by
  funext y
  show V c main_arg4 (((cfg0.win 2).blk t).view.emb y) = V c main_arg4 y
  refine congrArg (V c main_arg4) (funext fun a => Fin.ext ?_)
  match a with
    | ⟨0, _⟩ => show win0_2.index t (0 : Fin 1) * 128 + 1 * (y 0).val = (y 0).val; have := (idx_facts t).2.2.2.2.2.2.1; omega

/-- Window 3's block is its whole array at every point (its block index is constantly zero). -/
theorem whole3 (c : Dev nD) (t : Fin cfg0.N) : (iblk0 V c 3 t : S128x128.Idx → Elt Ideal .f32) = V c main_arg5 := by
  funext y
  show V c main_arg5 (((cfg0.win 3).blk t).view.emb y) = V c main_arg5 y
  refine congrArg (V c main_arg5) (funext fun a => Fin.ext ?_)
  match a with
    | ⟨0, _⟩ => show win0_3.index t (0 : Fin 2) * 128 + 1 * (y 0).val = (y 0).val; have := (idx_facts t).2.2.2.2.2.2.2.1; omega
    | ⟨1, _⟩ => show win0_3.index t (1 : Fin 2) * 128 + 1 * (y 1).val = (y 1).val; have := (idx_facts t).2.2.2.2.2.2.2.2.1; omega

/-- Window 4's block is its whole array at every point (its block index is constantly zero). -/
theorem whole4 (c : Dev nD) (t : Fin cfg0.N) : (iblk0 V c 4 t : S128.Idx → Elt Ideal .f32) = V c main_arg6 := by
  funext y
  show V c main_arg6 (((cfg0.win 4).blk t).view.emb y) = V c main_arg6 y
  refine congrArg (V c main_arg6) (funext fun a => Fin.ext ?_)
  match a with
    | ⟨0, _⟩ => show win0_4.index t (0 : Fin 1) * 128 + 1 * (y 0).val = (y 0).val; have := (idx_facts t).2.2.2.2.2.2.2.2.2.1; omega

/-- Window 5's block is its whole array at every point (its block index is constantly zero). -/
theorem whole5 (c : Dev nD) (t : Fin cfg0.N) : (iblk0 V c 5 t : S128x128.Idx → Elt Ideal .f32) = V c main_arg7 := by
  funext y
  show V c main_arg7 (((cfg0.win 5).blk t).view.emb y) = V c main_arg7 y
  refine congrArg (V c main_arg7) (funext fun a => Fin.ext ?_)
  match a with
    | ⟨0, _⟩ => show win0_5.index t (0 : Fin 2) * 128 + 1 * (y 0).val = (y 0).val; have := (idx_facts t).2.2.2.2.2.2.2.2.2.2.1; omega
    | ⟨1, _⟩ => show win0_5.index t (1 : Fin 2) * 128 + 1 * (y 1).val = (y 1).val; have := (idx_facts t).2.2.2.2.2.2.2.2.2.2.2.1; omega

/-- Window 6's block is its whole array at every point (its block index is constantly zero). -/
theorem whole6 (c : Dev nD) (t : Fin cfg0.N) : (iblk0 V c 6 t : S128.Idx → Elt Ideal .f32) = V c main_arg8 := by
  funext y
  show V c main_arg8 (((cfg0.win 6).blk t).view.emb y) = V c main_arg8 y
  refine congrArg (V c main_arg8) (funext fun a => Fin.ext ?_)
  match a with
    | ⟨0, _⟩ => show win0_6.index t (0 : Fin 1) * 128 + 1 * (y 0).val = (y 0).val; have := (idx_facts t).2.2.2.2.2.2.2.2.2.2.2.2.1; omega

/-- Window 7's block is its whole array at every point (its block index is constantly zero). -/
theorem whole7 (c : Dev nD) (t : Fin cfg0.N) : (iblk0 V c 7 t : S128x128.Idx → Elt Ideal .f32) = V c main_arg9 := by
  funext y
  show V c main_arg9 (((cfg0.win 7).blk t).view.emb y) = V c main_arg9 y
  refine congrArg (V c main_arg9) (funext fun a => Fin.ext ?_)
  match a with
    | ⟨0, _⟩ => show win0_7.index t (0 : Fin 2) * 128 + 1 * (y 0).val = (y 0).val; have := (idx_facts t).2.2.2.2.2.2.2.2.2.2.2.2.2.1; omega
    | ⟨1, _⟩ => show win0_7.index t (1 : Fin 2) * 128 + 1 * (y 1).val = (y 1).val; have := (idx_facts t).2.2.2.2.2.2.2.2.2.2.2.2.2.2.1; omega

/-- Window 8's block is its whole array at every point (its block index is constantly zero). -/
theorem whole8 (c : Dev nD) (t : Fin cfg0.N) : (iblk0 V c 8 t : S128.Idx → Elt Ideal .f32) = V c main_arg10 := by
  funext y
  show V c main_arg10 (((cfg0.win 8).blk t).view.emb y) = V c main_arg10 y
  refine congrArg (V c main_arg10) (funext fun a => Fin.ext ?_)
  match a with
    | ⟨0, _⟩ => show win0_8.index t (0 : Fin 1) * 128 + 1 * (y 0).val = (y 0).val; have := (idx_facts t).2.2.2.2.2.2.2.2.2.2.2.2.2.2.2; omega

/-- Row p of the feature tile at point t is row 5000·t + p of the feature array. -/
theorem feat_row (c : Dev nD) (t : Fin cfg0.N) (p : Fin 5000) (q : Fin 128) (k : Fin 128) :
    iblk0 V c 0 t (ix2 p k) = V c main_arg0 (ix2 ((((cfg0.win 9).blk t).view.emb (ix2 p q)) 0) k) := by
  show V c main_arg0 (((cfg0.win 0).blk t).view.emb (ix2 p k)) = _
  refine congrArg (V c main_arg0) (funext fun a => Fin.ext ?_)
  match a with
  | ⟨0, _⟩ =>
    show win0_0.index t (0 : Fin 2) * 5000 + 1 * p.val = win0_9.index t (0 : Fin 2) * 5000 + 1 * p.val
    have h0 := (idx_facts t).1; have h9 := (idx_facts t).2.2.1; omega
  | ⟨1, _⟩ =>
    show win0_0.index t (1 : Fin 2) * 128 + 1 * k.val = k.val
    have h0 := (idx_facts t).2.1; omega

/-- Column q of the result tile at point t is column q of the result array. -/
theorem res_col (t : Fin cfg0.N) (p : Fin 5000) (q : Fin 128) :
    (((cfg0.win 9).blk t).view.emb (ix2 p q)) 1 = q := by
  refine Fin.ext ?_
  show win0_9.index t (1 : Fin 2) * 128 + 1 * q.val = q.val
  have h9 := (idx_facts t).2.2.2.1; omega

/-- WHAT POINT t WRITES BACK is tile t of the node stage of the arrays the region finds. -/
theorem flushed_eq (c : Dev nD) (t : Fin cfg0.N) :
    (dat0 V c).flushed 9 t = ((cfg0.win 9).blk t).view.read (Elt Ideal) (nodes V c) := by
  show (cfg0.win 9).cut (grid0.coords t) ((dat0 V c).after 9 t) = _
  rw [after0_9]
  unfold out0_9
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  refine (NodeBody.stored_apply (iblk0 V c 0 t) (iblk0 V c 1 t) (iblk0 V c 2 t) (iblk0 V c 3 t) (iblk0 V c 4 t)
    (iblk0 V c 5 t) (iblk0 V c 6 t) (iblk0 V c 7 t) (iblk0 V c 8 t) p q).trans ?_
  rw [whole1 V c t, whole2 V c t, whole3 V c t, whole4 V c t, whole5 V c t, whole6 V c t, whole7 V c t, whole8 V c t]
  show _ = nodeRow (V c main_arg3) (V c main_arg4) (V c main_arg5) (V c main_arg6) (V c main_arg7) (V c main_arg8)
    (V c main_arg9) (V c main_arg10) (rowOf (V c main_arg0) ((((cfg0.win 9).blk t).view.emb (ix2 p q)) 0))
    ((((cfg0.win 9).blk t).view.emb (ix2 p q)) 1)
  rw [res_col t p q]
  exact congrArg (fun v => nodeRow (V c main_arg3) (V c main_arg4) (V c main_arg5) (V c main_arg6) (V c main_arg7)
    (V c main_arg8) (V c main_arg9) (V c main_arg10) v q) (funext fun k => feat_row V c t p q k)

/-- An index of the result array is in point t's tile iff each coordinate is in the tile's range on its axis. -/
theorem mem_blk (t : Fin cfg0.N) (i : S50000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v0).slice (win0_9.rect t)).set ↔ _
  rw [View.set_slice_whole, Rect.mem_set_unit]
  exact Iff.rfl

/-- Every index of the result array is in the tile of the point its row number divided by 5000 names. -/
theorem cover (i : S50000x128.Idx) :
    ∃ t : Fin cfg0.N, (cfg0.win 9).flush t = true ∧ i ∈ ((cfg0.win 9).blk t).view.set := by
  have hi0 : (i 0).val < 50000 := idx2_lt0 i
  have hi1 : (i 1).val < 128 := idx2_lt1 i
  have hN : (i 0).val / 5000 < grid0.N := by rw [N_0]; omega
  refine ⟨⟨(i 0).val / 5000, hN⟩, flush0_9 _, ?_⟩
  rw [mem_blk]
  have h0 := (idx_facts ⟨(i 0).val / 5000, hN⟩).2.2.1
  have h1 := (idx_facts ⟨(i 0).val / 5000, hN⟩).2.2.2.1
  intro a
  match a with
  | ⟨0, _⟩ =>
    show win0_9.index ⟨(i 0).val / 5000, hN⟩ (0 : Fin 2) * 5000 ≤ (i 0).val
      ∧ (i 0).val < win0_9.index ⟨(i 0).val / 5000, hN⟩ (0 : Fin 2) * 5000 + 5000
    rw [h0]; show (i 0).val / 5000 * 5000 ≤ (i 0).val ∧ (i 0).val < (i 0).val / 5000 * 5000 + 5000; omega
  | ⟨1, _⟩ =>
    show win0_9.index ⟨(i 0).val / 5000, hN⟩ (1 : Fin 2) * 128 ≤ (i 1).val
      ∧ (i 1).val < win0_9.index ⟨(i 0).val / 5000, hN⟩ (1 : Fin 2) * 128 + 128
    rw [h1]; omega

/-- THE RESULT ARRAY after the region's run: the node stage of the arrays the region finds. -/
theorem final (c : Dev nD) : (dat0 V c).arrAt 9 cfg0.N = nodes V c :=
  (dat0 V c).arrAt_eq_of_cover 9 (nodes V c) (fun t _ => flushed_eq V c t) (cover)

end Cert.KernelIdeal.NodeRegion

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.ReadBody.lean ====
/-
  The readout kernel's arithmetic on one tile of edges, read at an entry.

  The body loads a tile of 4000 source rows  xs  and 4000 destination rows  xd , the two halves  Rs, Rd  of the first
  weight matrix, and the remaining weights, and stores  relu(relu((xs·Rs + xd·Rd) + r0)·R1 + r1)·R2 + r2 . The first
  layer is two products into zero accumulators added together, then the bias row, then the maximum with zero: at
  (p, c) the rectified sum of the two rows' products (`first_row`). The other two layers are plain dense layers. So the
  stored tile at (p, c) is the readout of the pair (row p of xs, row p of xd) at class c (`stored_apply`).
-/
import proofs.«133304_j80633716015170_1_alg».proof.Proof.Gen.KernelIdeal.Skeleton
import proofs.«133304_j80633716015170_1_alg».proof.Proof.Spec
import proofs.«133304_j80633716015170_1_alg».proof.Proof.LibBiasRow

noncomputable section

namespace Cert.KernelIdeal.ReadBody

open Idealize.ShloMosaic Idealize.ShloMosaic.ValueIdx Cert.KernelIdeal Cert.KernelIdeal.Gen
open Cert.Dense Cert.Spec

/-- The three products' dimension numbers: columns of the left operand against rows of the right, no batch. -/
abbrev d0 := dot_S4000x128_S128x128_S4000x128_1_0_0_1_n_n
abbrev d1 := dot_S4000x128_S128x64_S4000x64_1_0_0_1_n_n
abbrev d2 := dot_S4000x64_S64x2_S4000x2_1_0_0_1_n_n

/-- The first readout layer on a tile, along row p: the rectified sum of the source row's and the destination row's
    products plus the bias. -/
theorem first_row (xs xd : Vec Ideal S4000x128 .f32) (Rs Rd : Vec Ideal S128x128 .f32) (r0 : Vec Ideal S128 .f32) (p : Fin 4000) :
    (fun c : Fin 128 =>
      maximumf (addf (addf
            (matmul d0 none (truncf .bf16 (shapeCast S4000x128 xs Facts₀.shapeCasts_S4000x128_S4000x128) Facts₀.bitsLt_bf16_f32)
              (truncf .bf16 (shapeCast S128x128 Rs Facts₀.shapeCasts_S128x128_S128x128) Facts₀.bitsLt_bf16_f32) (constant S4000x128 .f32 0x00000000#32))
            (matmul d0 none (truncf .bf16 (shapeCast S4000x128 xd Facts₀.shapeCasts_S4000x128_S4000x128) Facts₀.bitsLt_bf16_f32)
              (truncf .bf16 (shapeCast S128x128 Rd Facts₀.shapeCasts_S128x128_S128x128) Facts₀.bitsLt_bf16_f32) (constant S4000x128 .f32 0x00000000#32)))
          (broadcastTo S4000x128 (shapeCast S1x128 r0 Facts₀.shapeCasts_S128_S1x128) Facts₀.broadcasts_S1x128_S4000x128))
        (broadcast S4000x128 (Scalar.ofBits (F := Ideal) .f32 0x00000000#32)) (ix2 p c))
      = relu (pairAffine Rs Rd r0 (fun k => xs (ix2 p k)) (fun k => xd (ix2 p k))) := by
  funext c
  rw [kernel_relu_apply, shapeCast_self, shapeCast_self, shapeCast_self, shapeCast_self]
  refine congrArg (fun t => max t 0) ?_
  rw [addf_apply, addf_apply, matmul_zero_plain_apply d0 rfl rfl rfl rfl rfl rfl, matmul_zero_plain_apply d0 rfl rfl rfl rfl rfl rfl,
    Cert.BiasRow.cast_stretch_apply Facts₀.shapeCasts_S128_S1x128 Facts₀.broadcasts_S1x128_S4000x128 r0 p c]
  rfl

/-- The stored tile at (p, c): the readout of the pair of rows p at class c. -/
theorem stored_apply (x0 x1 : Vec Ideal S4000x128 .f32) (x2 x3 : Vec Ideal S128x128 .f32) (x4 : Vec Ideal S128 .f32)
    (x5 : Vec Ideal S128x64 .f32) (x6 : Vec Ideal S64 .f32) (x7 : Vec Ideal S64x2 .f32) (x8 : Vec Ideal S2 .f32)
    (p : Fin 4000) (c : Fin 2) :
    k1_pay1 (k1_pay2 x0 x1 x2 x3 x4 x5 x6 x7) (k1_pay3 x8) (ix2 p c)
      = readRow x2 x3 x4 x5 x6 x7 x8 (fun k => x0 (ix2 p k)) (fun k => x1 (ix2 p k)) c := by
  unfold k1_pay1 k1_pay2 k1_pay3
  dsimp only
  -- the last layer at (p, c), over row p of the second layer's output
  refine (kernel_affine_apply d2 rfl rfl rfl rfl rfl rfl Facts₀.bitsLt_bf16_f32 Facts₀.shapeCasts_S2_S1x2 Facts₀.broadcasts_S1x2_S4000x2 _ x7 x8 p c).trans ?_
  refine congrArg (fun v => affine x7 x8 v c) ?_
  -- the second layer along row p, over row p of the first layer's output
  have h2 := fun X => (funext fun q : Fin 64 => (kernel_relu_apply _ (ix2 p q)).trans (congrArg (fun t => max t 0)
    (kernel_affine_apply d1 rfl rfl rfl rfl rfl rfl Facts₀.bitsLt_bf16_f32 Facts₀.shapeCasts_S64_S1x64 Facts₀.broadcasts_S1x64_S4000x64 X x5 x6 p q)) :
      (fun q : Fin 64 => maximumf (addf (matmul d1 none (truncf .bf16 X Facts₀.bitsLt_bf16_f32) (truncf .bf16 x5 Facts₀.bitsLt_bf16_f32)
            (constant S4000x64 .f32 0x00000000#32))
          (broadcastTo S4000x64 (shapeCast S1x64 x6 Facts₀.shapeCasts_S64_S1x64) Facts₀.broadcasts_S1x64_S4000x64))
        (broadcast S4000x64 (Scalar.ofBits (F := Ideal) .f32 0x00000000#32)) (ix2 p q))
      = relu (affine x5 x6 (fun k => X (ix2 p k))))
  refine (h2 _).trans ?_
  exact congrArg (fun v => relu (affine x5 x6 v)) (first_row x0 x1 x2 x3 x4 p)

end Cert.KernelIdeal.ReadBody

end
-- ==== Proof.ReadRegion.lean ====
/-
  The readout region's result array after its run: the readout stage of the arrays the region finds.

  The region walks 200 tiles of 4000 edges. At tile t it reads rows 4000·t … 4000·t + 3999 of the two gathered
  feature arrays (source ends, destination ends) and the whole of every weight array, and writes back the same rows of
  the [800000, 2] result. The stored tile at (p, c) is the readout of the pair of rows p of the two loaded tiles, which
  are rows 4000·t + p of the two arrays; so what tile t writes back is rows 4000·t … of the readout stage of the whole
  arrays (`flushed_eq`). Row r lies in tile r / 4000, so the tiles cover the result array (`cover`), which ends holding
  the readout stage of the whole arrays (`final`).
-/
import proofs.«133304_j80633716015170_1_alg».proof.Proof.Gen.KernelIdeal.Frame
import proofs.«133304_j80633716015170_1_alg».proof.Proof.ReadBody
import Idealize.ShloMosaic.Lib.Pipeline.Value

set_option maxRecDepth 16384

noncomputable section

namespace Cert.KernelIdeal.ReadRegion

open Idealize.ShloMosaic Idealize.ShloMosaic.TcCoe Idealize.ShloMosaic.ValueIdx Idealize.SL.Sem
open Cert.KernelIdeal Cert.KernelIdeal.Gen Cert.Spec
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The readout stage of the arrays the region finds: what its result array ends holding. -/
abbrev scores (c : Dev nD) : S800000x2.Idx → Elt Ideal .f32 :=
  readArr (V c main_v7) (V c main_v14) (V c main_v15) (V c main_v16) (V c main_arg12) (V c main_arg13)
    (V c main_arg14) (V c main_arg15) (V c main_arg16)

/-- The printed index maps over the grid: the two feature windows and the result window are at row-tile t, every
    weight window at its one block. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_9.index t (0 : Fin 2) = t.val
    ∧ win1_9.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 2) = 0
    ∧ win1_7.index t (1 : Fin 2) = 0
    ∧ win1_8.index t (0 : Fin 1) = 0 :=
  (by decide +kernel : ∀ t : Fin grid1.N, _)

/-- Window 2's block is its whole array at every point (its block index is constantly zero). -/
theorem whole2 (c : Dev nD) (t : Fin cfg1.N) : (iblk1 V c 2 t : S128x128.Idx → Elt Ideal .f32) = V c main_v15 := by
  funext y
  show V c main_v15 (((cfg1.win 2).blk t).view.emb y) = V c main_v15 y
  refine congrArg (V c main_v15) (funext fun a => Fin.ext ?_)
  match a with
    | ⟨0, _⟩ => show win1_2.index t (0 : Fin 2) * 128 + 1 * (y 0).val = (y 0).val; have := (idx_facts t).2.2.2.2.2.2.1; omega
    | ⟨1, _⟩ => show win1_2.index t (1 : Fin 2) * 128 + 1 * (y 1).val = (y 1).val; have := (idx_facts t).2.2.2.2.2.2.2.1; omega

/-- Window 3's block is its whole array at every point (its block index is constantly zero). -/
theorem whole3 (c : Dev nD) (t : Fin cfg1.N) : (iblk1 V c 3 t : S128x128.Idx → Elt Ideal .f32) = V c main_v16 := by
  funext y
  show V c main_v16 (((cfg1.win 3).blk t).view.emb y) = V c main_v16 y
  refine congrArg (V c main_v16) (funext fun a => Fin.ext ?_)
  match a with
    | ⟨0, _⟩ => show win1_3.index t (0 : Fin 2) * 128 + 1 * (y 0).val = (y 0).val; have := (idx_facts t).2.2.2.2.2.2.2.2.1; omega
    | ⟨1, _⟩ => show win1_3.index t (1 : Fin 2) * 128 + 1 * (y 1).val = (y 1).val; have := (idx_facts t).2.2.2.2.2.2.2.2.2.1; omega

/-- Window 4's block is its whole array at every point (its block index is constantly zero). -/
theorem whole4 (c : Dev nD) (t : Fin cfg1.N) : (iblk1 V c 4 t : S128.Idx → Elt Ideal .f32) = V c main_arg12 := by
  funext y
  show V c main_arg12 (((cfg1.win 4).blk t).view.emb y) = V c main_arg12 y
  refine congrArg (V c main_arg12) (funext fun a => Fin.ext ?_)
  match a with
    | ⟨0, _⟩ => show win1_4.index t (0 : Fin 1) * 128 + 1 * (y 0).val = (y 0).val; have := (idx_facts t).2.2.2.2.2.2.2.2.2.2.1; omega

/-- Window 5's block is its whole array at every point (its block index is constantly zero). -/
theorem whole5 (c : Dev nD) (t : Fin cfg1.N) : (iblk1 V c 5 t : S128x64.Idx → Elt Ideal .f32) = V c main_arg13 := by
  funext y
  show V c main_arg13 (((cfg1.win 5).blk t).view.emb y) = V c main_arg13 y
  refine congrArg (V c main_arg13) (funext fun a => Fin.ext ?_)
  match a with
    | ⟨0, _⟩ => show win1_5.index t (0 : Fin 2) * 128 + 1 * (y 0).val = (y 0).val; have := (idx_facts t).2.2.2.2.2.2.2.2.2.2.2.1; omega
    | ⟨1, _⟩ => show win1_5.index t (1 : Fin 2) * 64 + 1 * (y 1).val = (y 1).val; have := (idx_facts t).2.2.2.2.2.2.2.2.2.2.2.2.1; omega

/-- Window 6's block is its whole array at every point (its block index is constantly zero). -/
theorem whole6 (c : Dev nD) (t : Fin cfg1.N) : (iblk1 V c 6 t : S64.Idx → Elt Ideal .f32) = V c main_arg14 := by
  funext y
  show V c main_arg14 (((cfg1.win 6).blk t).view.emb y) = V c main_arg14 y
  refine congrArg (V c main_arg14) (funext fun a => Fin.ext ?_)
  match a with
    | ⟨0, _⟩ => show win1_6.index t (0 : Fin 1) * 64 + 1 * (y 0).val = (y 0).val; have := (idx_facts t).2.2.2.2.2.2.2.2.2.2.2.2.2.1; omega

/-- Window 7's block is its whole array at every point (its block index is constantly zero). -/
theorem whole7 (c : Dev nD) (t : Fin cfg1.N) : (iblk1 V c 7 t : S64x2.Idx → Elt Ideal .f32) = V c main_arg15 := by
  funext y
  show V c main_arg15 (((cfg1.win 7).blk t).view.emb y) = V c main_arg15 y
  refine congrArg (V c main_arg15) (funext fun a => Fin.ext ?_)
  match a with
    | ⟨0, _⟩ => show win1_7.index t (0 : Fin 2) * 64 + 1 * (y 0).val = (y 0).val; have := (idx_facts t).2.2.2.2.2.2.2.2.2.2.2.2.2.2.1; omega
    | ⟨1, _⟩ => show win1_7.index t (1 : Fin 2) * 2 + 1 * (y 1).val = (y 1).val; have := (idx_facts t).2.2.2.2.2.2.2.2.2.2.2.2.2.2.2.1; omega

/-- Window 8's block is its whole array at every point (its block index is constantly zero). -/
theorem whole8 (c : Dev nD) (t : Fin cfg1.N) : (iblk1 V c 8 t : S2.Idx → Elt Ideal .f32) = V c main_arg16 := by
  funext y
  show V c main_arg16 (((cfg1.win 8).blk t).view.emb y) = V c main_arg16 y
  refine congrArg (V c main_arg16) (funext fun a => Fin.ext ?_)
  match a with
    | ⟨0, _⟩ => show win1_8.index t (0 : Fin 1) * 2 + 1 * (y 0).val = (y 0).val; have := (idx_facts t).2.2.2.2.2.2.2.2.2.2.2.2.2.2.2.2; omega

/-- Row p of the source tile at point t is row 4000·t + p of the source array. -/
theorem src_row (c : Dev nD) (t : Fin cfg1.N) (p : Fin 4000) (q : Fin 2) (k : Fin 128) :
    iblk1 V c 0 t (ix2 p k) = V c main_v7 (ix2 ((((cfg1.win 9).blk t).view.emb (ix2 p q)) 0) k) := by
  show V c main_v7 (((cfg1.win 0).blk t).view.emb (ix2 p k)) = _
  refine congrArg (V c main_v7) (funext fun a => Fin.ext ?_)
  match a with
  | ⟨0, _⟩ =>
    show win1_0.index t (0 : Fin 2) * 4000 + 1 * p.val = win1_9.index t (0 : Fin 2) * 4000 + 1 * p.val
    have h0 := (idx_facts t).1; have h9 := (idx_facts t).2.2.2.2.1; omega
  | ⟨1, _⟩ =>
    show win1_0.index t (1 : Fin 2) * 128 + 1 * k.val = k.val
    have h0 := (idx_facts t).2.1; omega

/-- Row p of the destination tile at point t is row 4000·t + p of the destination array. -/
theorem dst_row (c : Dev nD) (t : Fin cfg1.N) (p : Fin 4000) (q : Fin 2) (k : Fin 128) :
    iblk1 V c 1 t (ix2 p k) = V c main_v14 (ix2 ((((cfg1.win 9).blk t).view.emb (ix2 p q)) 0) k) := by
  show V c main_v14 (((cfg1.win 1).blk t).view.emb (ix2 p k)) = _
  refine congrArg (V c main_v14) (funext fun a => Fin.ext ?_)
  match a with
  | ⟨0, _⟩ =>
    show win1_1.index t (0 : Fin 2) * 4000 + 1 * p.val = win1_9.index t (0 : Fin 2) * 4000 + 1 * p.val
    have h0 := (idx_facts t).2.2.1; have h9 := (idx_facts t).2.2.2.2.1; omega
  | ⟨1, _⟩ =>
    show win1_1.index t (1 : Fin 2) * 128 + 1 * k.val = k.val
    have h0 := (idx_facts t).2.2.2.1; omega

/-- Column q of the result tile at point t is column q of the result array. -/
theorem res_col (t : Fin cfg1.N) (p : Fin 4000) (q : Fin 2) :
    (((cfg1.win 9).blk t).view.emb (ix2 p q)) 1 = q := by
  refine Fin.ext ?_
  show win1_9.index t (1 : Fin 2) * 2 + 1 * q.val = q.val
  have h9 := (idx_facts t).2.2.2.2.2.1; omega

/-- WHAT POINT t WRITES BACK is tile t of the readout stage of the arrays the region finds. -/
theorem flushed_eq (c : Dev nD) (t : Fin cfg1.N) :
    (dat1 V c).flushed 9 t = ((cfg1.win 9).blk t).view.read (Elt Ideal) (scores V c) := by
  show (cfg1.win 9).cut (grid1.coords t) ((dat1 V c).after 9 t) = _
  rw [after1_9]
  unfold out1_9
  rw [View.canon_unit_zero hz2]
  simp only [View.ld_unit_zero (S := S4000x128) hz2, View.ld_unit_zero (S := S128x128) hz2, View.ld_unit_zero (S := S128) hz1,
    View.ld_unit_zero (S := S128x64) hz2, View.ld_unit_zero (S := S64) hz1, View.ld_unit_zero (S := S64x2) hz2,
    View.ld_unit_zero (S := S2) hz1]
  funext j
  obtain ⟨p, q, rfl⟩ : ∃ (p : Fin 4000) (q : Fin 2), j = ix2 p q := ⟨j 0, j 1, eq_ix2 j⟩
  refine (ReadBody.stored_apply (iblk1 V c 0 t) (iblk1 V c 1 t) (iblk1 V c 2 t) (iblk1 V c 3 t) (iblk1 V c 4 t)
    (iblk1 V c 5 t) (iblk1 V c 6 t) (iblk1 V c 7 t) (iblk1 V c 8 t) p q).trans ?_
  rw [whole2 V c t, whole3 V c t, whole4 V c t, whole5 V c t, whole6 V c t, whole7 V c t, whole8 V c t]
  show _ = readRow (V c main_v15) (V c main_v16) (V c main_arg12) (V c main_arg13) (V c main_arg14) (V c main_arg15)
    (V c main_arg16) (rowOf (V c main_v7) ((((cfg1.win 9).blk t).view.emb (ix2 p q)) 0))
    (rowOf (V c main_v14) ((((cfg1.win 9).blk t).view.emb (ix2 p q)) 0))
    ((((cfg1.win 9).blk t).view.emb (ix2 p q)) 1)
  rw [res_col t p q]
  rw [show (fun k => iblk1 V c 0 t (ix2 p k)) = rowOf (V c main_v7) ((((cfg1.win 9).blk t).view.emb (ix2 p q)) 0)
        from funext fun k => src_row V c t p q k,
      show (fun k => iblk1 V c 1 t (ix2 p k)) = rowOf (V c main_v14) ((((cfg1.win 9).blk t).view.emb (ix2 p q)) 0)
        from funext fun k => dst_row V c t p q k]

/-- An index of the result array is in point t's tile iff each coordinate is in the tile's range on its axis. -/
theorem mem_blk (t : Fin cfg1.N) (i : S800000x2.Idx) :
    i ∈ ((cfg1.win 9).blk t).view.set ↔ ∀ a : Fin 2, win1_9.index t a * S4000x2.size a ≤ (i a).val
      ∧ (i a).val < win1_9.index t a * S4000x2.size a + S4000x2.size a := by
  show i ∈ ((View.whole main_v17).slice (win1_9.rect t)).set ↔ _
  rw [View.set_slice_whole, Rect.mem_set_unit]
  exact Iff.rfl

/-- Every index of the result array is in the tile of the point its row number divided by 4000 names. -/
theorem cover (i : S800000x2.Idx) :
    ∃ t : Fin cfg1.N, (cfg1.win 9).flush t = true ∧ i ∈ ((cfg1.win 9).blk t).view.set := by
  have hi0 : (i 0).val < 800000 := idx2_lt0 i
  have hi1 : (i 1).val < 2 := idx2_lt1 i
  have hN : (i 0).val / 4000 < grid1.N := by rw [N_1]; omega
  refine ⟨⟨(i 0).val / 4000, hN⟩, flush1_9 _, ?_⟩
  rw [mem_blk]
  have h0 := (idx_facts ⟨(i 0).val / 4000, hN⟩).2.2.2.2.1
  have h1 := (idx_facts ⟨(i 0).val / 4000, hN⟩).2.2.2.2.2.1
  intro a
  match a with
  | ⟨0, _⟩ =>
    show win1_9.index ⟨(i 0).val / 4000, hN⟩ (0 : Fin 2) * 4000 ≤ (i 0).val
      ∧ (i 0).val < win1_9.index ⟨(i 0).val / 4000, hN⟩ (0 : Fin 2) * 4000 + 4000
    rw [h0]; show (i 0).val / 4000 * 4000 ≤ (i 0).val ∧ (i 0).val < (i 0).val / 4000 * 4000 + 4000; omega
  | ⟨1, _⟩ =>
    show win1_9.index ⟨(i 0).val / 4000, hN⟩ (1 : Fin 2) * 2 ≤ (i 1).val
      ∧ (i 1).val < win1_9.index ⟨(i 0).val / 4000, hN⟩ (1 : Fin 2) * 2 + 2
    rw [h1]; omega

/-- THE RESULT ARRAY after the region's run: the readout stage of the arrays the region finds. -/
theorem final (c : Dev nD) : (dat1 V c).arrAt 9 cfg1.N = scores V c :=
  (dat1 V c).arrAt_eq_of_cover 9 (scores V c) (fun t _ => flushed_eq V c t) (cover)

end Cert.KernelIdeal.ReadRegion

end
-- ==== Proof.KernelFinal.lean ====
/-
  The two-region program's result as one function of its arguments.

  Between the regions the host picks, for each of the 800000 edges, the node-stage row of its source node and of its
  destination node (a gather through the edge's node number, a negative number first wrapped by adding 50000: `pick`),
  and cuts the first readout weight matrix into its rows 0 … 127 and 128 … 255. The node region leaves the node stage
  of the feature array (NodeRegion.final); the readout region, entered with the picked rows and the two halves, leaves
  the readout stage of them (ReadRegion.final). So the result array is `edgeScores` of the arguments with the two row
  pickers (`result_eq`), and the program's run ends with the result there and the arguments unchanged (`run`).
-/
import proofs.«133304_j80633716015170_1_alg».proof.Proof.KernelRun
import proofs.«133304_j80633716015170_1_alg».proof.Proof.NodeRegion
import proofs.«133304_j80633716015170_1_alg».proof.Proof.ReadRegion
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.Spec

/-- An edge's node number as a start index: a negative number has the node count added; laid out as an [E, 1] column. -/
def startCol (s : (⟨S800000, .i32⟩ : BufTy).Contents (Elt Ideal)) : (⟨S800000x1, .i32⟩ : BufTy).Contents (Elt Ideal) :=
  broadcastInDim S800000x1 ![0] Facts₀.bcast_S800000_S800000x1_0
    (select (cmpi .slt s (broadcastInDim S800000 ![] Facts₀.bcast_S_S800000 (constantI S_ 32 0#32)))
      (addi s (broadcastInDim S800000 ![] Facts₀.bcast_S_S800000 (constantI S_ 32 50000#32))) s)

/-- The rows of a node array picked per edge by the edges' node numbers. -/
def pick (s : (⟨S800000, .i32⟩ : BufTy).Contents (Elt Ideal)) (X : Mat 50000 128) : Mat 800000 128 :=
  Host.gather gather_S50000x128_S800000x1_S800000x128_1_0_n_n_0_1_1128 X (startCol s)

variable (m : (ℓ : Loc nD τ sig) → Buf (Elt Ideal) ℓ) (ρ : Dev nD → PrngReg)

/-- What the node region leaves in its result array: the node stage of the launched feature array. -/
theorem W1_nodes (c : Dev nD) : W1 m ρ c (Proc.devRef .tc main_v0)
    = nodeArr (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W1_arr m ρ c 9).trans (NodeRegion.final (V0 m ρ) c)

/-- The node region and the host stretch leave main_arg1 as launched. -/
theorem W1_main_arg1 (c : Dev nD) : W1 m ρ c (Proc.devRef .tc main_arg1) = m ((c : Thread nD τ).loc main_arg1) :=
  W1_of_ne m ρ c main_arg1 (by decide)

/-- The node region and the host stretch leave main_arg2 as launched. -/
theorem W1_main_arg2 (c : Dev nD) : W1 m ρ c (Proc.devRef .tc main_arg2) = m ((c : Thread nD τ).loc main_arg2) :=
  W1_of_ne m ρ c main_arg2 (by decide)

/-- The node region and the host stretch leave main_arg11 as launched. -/
theorem W1_main_arg11 (c : Dev nD) : W1 m ρ c (Proc.devRef .tc main_arg11) = m ((c : Thread nD τ).loc main_arg11) :=
  W1_of_ne m ρ c main_arg11 (by decide)

/-- The node region and the host stretch leave main_arg12 as launched. -/
theorem W1_main_arg12 (c : Dev nD) : W1 m ρ c (Proc.devRef .tc main_arg12) = m ((c : Thread nD τ).loc main_arg12) :=
  W1_of_ne m ρ c main_arg12 (by decide)

/-- The node region and the host stretch leave main_arg13 as launched. -/
theorem W1_main_arg13 (c : Dev nD) : W1 m ρ c (Proc.devRef .tc main_arg13) = m ((c : Thread nD τ).loc main_arg13) :=
  W1_of_ne m ρ c main_arg13 (by decide)

/-- The node region and the host stretch leave main_arg14 as launched. -/
theorem W1_main_arg14 (c : Dev nD) : W1 m ρ c (Proc.devRef .tc main_arg14) = m ((c : Thread nD τ).loc main_arg14) :=
  W1_of_ne m ρ c main_arg14 (by decide)

/-- The node region and the host stretch leave main_arg15 as launched. -/
theorem W1_main_arg15 (c : Dev nD) : W1 m ρ c (Proc.devRef .tc main_arg15) = m ((c : Thread nD τ).loc main_arg15) :=
  W1_of_ne m ρ c main_arg15 (by decide)

/-- The node region and the host stretch leave main_arg16 as launched. -/
theorem W1_main_arg16 (c : Dev nD) : W1 m ρ c (Proc.devRef .tc main_arg16) = m ((c : Thread nD τ).loc main_arg16) :=
  W1_of_ne m ρ c main_arg16 (by decide)

/-- The source rows the readout region finds: the node stage's rows picked by the source node numbers. -/
theorem V2_src (c : Dev nD) : V2 m ρ c main_v7
    = pick (m ((c : Thread nD τ).loc main_arg1)) (nodeArr (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  have e : V2 m ρ c main_v7 = pick (W1 m ρ c (Proc.devRef .tc main_arg1)) (W1 m ρ c (Proc.devRef .tc main_v0)) := by
    show StableHlo.after hostOps1 (W1 m ρ c) (Proc.devRef .tc main_v7) = _
    after_results
    rfl
  rw [e, W1_nodes, W1_main_arg1]

/-- The destination rows the readout region finds: the node stage's rows picked by the destination node numbers. -/
theorem V2_dst (c : Dev nD) : V2 m ρ c main_v14
    = pick (m ((c : Thread nD τ).loc main_arg2)) (nodeArr (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  have e : V2 m ρ c main_v14 = pick (W1 m ρ c (Proc.devRef .tc main_arg2)) (W1 m ρ c (Proc.devRef .tc main_v0)) := by
    show StableHlo.after hostOps1 (W1 m ρ c) (Proc.devRef .tc main_v14) = _
    after_results
    rfl
  rw [e, W1_nodes, W1_main_arg2]

/-- The first half of the first readout weight matrix, as the readout region finds it. -/
theorem V2_top (c : Dev nD) : V2 m ρ c main_v15 = topHalf (m ((c : Thread nD τ).loc main_arg11)) := by
  have e : V2 m ρ c main_v15
      = extractStridedSlice S128x128 ![0, 0] (W1 m ρ c (Proc.devRef .tc main_arg11)) Facts₀.slices_S256x128_S128x128_0_0 := by
    show StableHlo.after hostOps1 (W1 m ρ c) (Proc.devRef .tc main_v15) = _
    after_results
  rw [e, W1_main_arg11]
  funext i
  obtain ⟨j, k, rfl⟩ : ∃ (j : Fin 128) (k : Fin 128), i = ix2 j k := ⟨i 0, i 1, eq_ix2 i⟩
  exact slice2_axis0_apply 0 _ Facts₀.slices_S256x128_S128x128_0_0 j k _ (Nat.zero_add _).symm

/-- The second half of the first readout weight matrix, as the readout region finds it. -/
theorem V2_bot (c : Dev nD) : V2 m ρ c main_v16 = botHalf (m ((c : Thread nD τ).loc main_arg11)) := by
  have e : V2 m ρ c main_v16
      = extractStridedSlice S128x128 ![128, 0] (W1 m ρ c (Proc.devRef .tc main_arg11)) Facts₀.slices_S256x128_S128x128_128_0 := by
    show StableHlo.after hostOps1 (W1 m ρ c) (Proc.devRef .tc main_v16) = _
    after_results
  rw [e, W1_main_arg11]
  funext i
  obtain ⟨j, k, rfl⟩ : ∃ (j : Fin 128) (k : Fin 128), i = ix2 j k := ⟨i 0, i 1, eq_ix2 i⟩
  exact slice2_axis0_apply 128 _ Facts₀.slices_S256x128_S128x128_128_0 j k _ rfl

/-- The host stretch does not write main_arg12: the readout region finds it as launched. -/
theorem V2_main_arg12 (c : Dev nD) : V2 m ρ c main_arg12 = m ((c : Thread nD τ).loc main_arg12) := by
  have e : V2 m ρ c main_arg12 = W1 m ρ c (Proc.devRef .tc main_arg12) := by
    show StableHlo.after hostOps1 (W1 m ρ c) (Proc.devRef .tc main_arg12) = _
    after_results
  exact e.trans (W1_main_arg12 m ρ c)

/-- The host stretch does not write main_arg13: the readout region finds it as launched. -/
theorem V2_main_arg13 (c : Dev nD) : V2 m ρ c main_arg13 = m ((c : Thread nD τ).loc main_arg13) := by
  have e : V2 m ρ c main_arg13 = W1 m ρ c (Proc.devRef .tc main_arg13) := by
    show StableHlo.after hostOps1 (W1 m ρ c) (Proc.devRef .tc main_arg13) = _
    after_results
  exact e.trans (W1_main_arg13 m ρ c)

/-- The host stretch does not write main_arg14: the readout region finds it as launched. -/
theorem V2_main_arg14 (c : Dev nD) : V2 m ρ c main_arg14 = m ((c : Thread nD τ).loc main_arg14) := by
  have e : V2 m ρ c main_arg14 = W1 m ρ c (Proc.devRef .tc main_arg14) := by
    show StableHlo.after hostOps1 (W1 m ρ c) (Proc.devRef .tc main_arg14) = _
    after_results
  exact e.trans (W1_main_arg14 m ρ c)

/-- The host stretch does not write main_arg15: the readout region finds it as launched. -/
theorem V2_main_arg15 (c : Dev nD) : V2 m ρ c main_arg15 = m ((c : Thread nD τ).loc main_arg15) := by
  have e : V2 m ρ c main_arg15 = W1 m ρ c (Proc.devRef .tc main_arg15) := by
    show StableHlo.after hostOps1 (W1 m ρ c) (Proc.devRef .tc main_arg15) = _
    after_results
  exact e.trans (W1_main_arg15 m ρ c)

/-- The host stretch does not write main_arg16: the readout region finds it as launched. -/
theorem V2_main_arg16 (c : Dev nD) : V2 m ρ c main_arg16 = m ((c : Thread nD τ).loc main_arg16) := by
  have e : V2 m ρ c main_arg16 = W1 m ρ c (Proc.devRef .tc main_arg16) := by
    show StableHlo.after hostOps1 (W1 m ρ c) (Proc.devRef .tc main_arg16) = _
    after_results
  exact e.trans (W1_main_arg16 m ρ c)

/-- The result array after the run, as one function of the launched arguments. -/
theorem result_eq (c : Dev nD) : W3 m ρ c (Proc.devRef .tc main_v17)
    = edgeScores (pick (m ((c : Thread nD τ).loc main_arg1))) (pick (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W3_arr m ρ c 9).trans ((ReadRegion.final (V2 m ρ) c).trans ?_)
  show readArr (V2 m ρ c main_v7) (V2 m ρ c main_v14) (V2 m ρ c main_v15) (V2 m ρ c main_v16) (V2 m ρ c main_arg12)
    (V2 m ρ c main_arg13) (V2 m ρ c main_arg14) (V2 m ρ c main_arg15) (V2 m ρ c main_arg16) = _
  rw [V2_src, V2_dst, V2_top, V2_bot, V2_main_arg12, V2_main_arg13, V2_main_arg14, V2_main_arg15, V2_main_arg16]
  rfl

/-- The run of the program: it ends with the result array at `edgeScores` of the arguments, the arguments unchanged. -/
theorem run : θ_run defs (onTc (τ := τ) (main (F := Ideal))) ⟨m, fun _ => 0, ρ⟩ (fun r => ∀ c : Dev nD,
      r.2.mem ((c.tc : Thread nD τ).loc main_v17)
        = edgeScores (pick (m ((c : Thread nD τ).loc main_arg1))) (pick (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c).1.trans (result_eq m ρ c), (h c).2⟩) (run_result m ρ)

end Cert.KernelIdeal.Whole

end
-- ==== Proof.RefValue.lean ====
/-
  The reference program's result as one function of its arguments.

  The reference computes, in host operations on whole arrays, the node stage of all 50000 feature rows, picks per edge
  the rows of its source and destination nodes, joins each pair into one 256-wide row, and applies three dense layers.
  Every dense layer is a general product plus a bias row laid out over the rows, most followed by a maximum with zero:
  on a whole array it acts row by row (`host_layer`, `host_affine`). The logistic function is spelled
  1 / (1 + e^(−t)) in four host operations, which is the extended reals' logistic function by definition
  (`host_gate`). The first readout layer of a joined row is the sum of the two halves' products plus the bias
  (`Spec.affine_append`), the joined row reading its first 128 entries from the source row and its last 128 from the
  destination row (`joined_left`, `joined_right`, `first_layer_row`). So the result is `edgeScores` of the arguments
  (`ref_nodes`, `ref_readout`, `result_eq`).
-/
import proofs.«133304_j80633716015170_1_alg».proof.Proof.Gen.ReferenceIdeal.Run
import proofs.«133304_j80633716015170_1_alg».proof.Proof.Spec
import Idealize.ShloMosaic.Lib.IdealHost
import Idealize.ShloMosaic.Lib.Pipeline.Value

set_option maxRecDepth 16384

noncomputable section

namespace Cert.ReferenceIdeal.RefValue

open Idealize.ShloMosaic Idealize.ShloMosaic.TcCoe Idealize.ShloMosaic.ValueIdx Idealize.SL.Sem
open Cert.ReferenceIdeal Cert.Dense Cert.Spec

/-- An edge's node number as a start index: a negative number has the node count added; laid out as an [E, 1] column. -/
def startCol (s : (⟨S800000, .i32⟩ : BufTy).Contents (Elt Ideal)) : (⟨S800000x1, .i32⟩ : BufTy).Contents (Elt Ideal) :=
  broadcastInDim S800000x1 ![0] Facts₀.bcast_S800000_S800000x1_0
    (select (cmpi .slt s (broadcastInDim S800000 ![] Facts₀.bcast_S_S800000 (constantI S_ 32 0#32)))
      (addi s (broadcastInDim S800000 ![] Facts₀.bcast_S_S800000 (constantI S_ 32 50000#32))) s)

/-- The rows of a node array picked per edge by the edges' node numbers. -/
def pick (s : (⟨S800000, .i32⟩ : BufTy).Contents (Elt Ideal)) (X : Mat 50000 128) : Mat 800000 128 :=
  Host.gather gather_S50000x128_S800000x1_S800000x128_1_0_n_n_0_1_1128 X (startCol s)

/-- A dense layer before any rectifier, on a whole array: row by row. -/
theorem host_affine {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : Mat R K) (W : Mat K C) (b : Row C) :
    addf (Host.dotGeneral d none X W)
        (broadcastInDim ⟨2, ![R, C]⟩ ![0, 1] hb2 (broadcastInDim ⟨2, ![1, C]⟩ ![1] hb1 b))
      = fun i => affine W b (rowOf X (i 0)) (i 1) := by
  funext i
  obtain ⟨r, c, rfl⟩ : ∃ (r : Fin R) (c : Fin C), i = ix2 r c := ⟨i 0, i 1, eq_ix2 i⟩
  exact host_affine_apply d h1 h2 h3 h4 h5 h6 hb1 hb2 X W b r c

/-- A rectified dense layer on a whole array: row by row. -/
theorem host_layer {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (hb0 : (⟨0, ![]⟩ : Shape).BroadcastsInDim ⟨2, ![R, C]⟩ (![] : Fin 0 → Fin 2))
    (X : Mat R K) (W : Mat K C) (b : Row C) :
    maximumf (addf (Host.dotGeneral d none X W)
          (broadcastInDim ⟨2, ![R, C]⟩ ![0, 1] hb2 (broadcastInDim ⟨2, ![1, C]⟩ ![1] hb1 b)))
        (broadcastInDim ⟨2, ![R, C]⟩ ![] hb0 (constant (F := Ideal) ⟨0, ![]⟩ .f32 0x00000000#32))
      = fun i => relu (affine W b (rowOf X (i 0))) (i 1) := by
  funext i
  obtain ⟨r, c, rfl⟩ : ∃ (r : Fin R) (c : Fin C), i = ix2 r c := ⟨i 0, i 1, eq_ix2 i⟩
  rw [host_relu_apply hb0]
  exact congrArg (fun t => max t 0) (host_affine_apply d h1 h2 h3 h4 h5 h6 hb1 hb2 X W b r c)

/-- The gate on a whole array: the host's 1 / (1 + e^(−t)) is the logistic function, entry by entry. -/
theorem host_gate {R : ℕ} (d : DotDims ⟨2, ![R, 128]⟩ ⟨2, ![128, 128]⟩ ⟨2, ![R, 128]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![128]⟩ : Shape).BroadcastsInDim ⟨2, ![1, 128]⟩ (![1] : Fin 1 → Fin 2))
    (hb2 : (⟨2, ![1, 128]⟩ : Shape).BroadcastsInDim ⟨2, ![R, 128]⟩ (![0, 1] : Fin 2 → Fin 2))
    (hb0 : (⟨0, ![]⟩ : Shape).BroadcastsInDim ⟨2, ![R, 128]⟩ (![] : Fin 0 → Fin 2))
    (H : Mat R 128) (Wg : Mat 128 128) (bg : Row 128) :
    mulf (Host.divf (broadcastInDim ⟨2, ![R, 128]⟩ ![] hb0 (constant (F := Ideal) ⟨0, ![]⟩ .f32 0x3F800000#32))
          (addf (broadcastInDim ⟨2, ![R, 128]⟩ ![] hb0 (constant (F := Ideal) ⟨0, ![]⟩ .f32 0x3F800000#32))
            (Host.exp (Host.negf (addf (Host.dotGeneral d none H Wg)
              (broadcastInDim ⟨2, ![R, 128]⟩ ![0, 1] hb2 (broadcastInDim ⟨2, ![1, 128]⟩ ![1] hb1 bg)))))))
        H
      = fun i => gate Wg bg (rowOf H (i 0)) (i 1) := by
  funext i
  obtain ⟨r, c, rfl⟩ : ∃ (r : Fin R) (c : Fin 128), i = ix2 r c := ⟨i 0, i 1, eq_ix2 i⟩
  have ha := host_affine_apply d h1 h2 h3 h4 h5 h6 hb1 hb2 H Wg bg r c
  have h1' : broadcastInDim ⟨2, ![R, 128]⟩ ![] hb0 (constant (F := Ideal) ⟨0, ![]⟩ .f32 0x3F800000#32) (ix2 r c) = 1 := by
    rw [broadcastInDim_scalar_apply, constant_apply, Ideal.ofBits_one_f32]
  show Ideal.div (broadcastInDim ⟨2, ![R, 128]⟩ ![] hb0 (constant (F := Ideal) ⟨0, ![]⟩ .f32 0x3F800000#32) (ix2 r c))
      (broadcastInDim ⟨2, ![R, 128]⟩ ![] hb0 (constant (F := Ideal) ⟨0, ![]⟩ .f32 0x3F800000#32) (ix2 r c)
        + Ideal.exp (-(addf (Host.dotGeneral d none H Wg)
            (broadcastInDim ⟨2, ![R, 128]⟩ ![0, 1] hb2 (broadcastInDim ⟨2, ![1, 128]⟩ ![1] hb1 bg)) (ix2 r c))))
      * H (ix2 r c) = _
  rw [h1', ha]
  rfl

/-- The joined row's first 128 entries are the first piece's row. -/
theorem joined_left (A B : Mat 800000 128) (e : Fin 800000) (k : Fin 128) :
    concatenate S800000x256 1 [⟨S800000x128, A⟩, ⟨S800000x128, B⟩] Facts₀.concatenates_S800000x128_S800000x128_S800000x256_d1
        (ix2 e ⟨k.val, by have := k.isLt; omega⟩) = A (ix2 e k) := by
  refine concatenate_pair_apply_left (t := S800000x256) (s₁ := S800000x128) (s₂ := S800000x128) (1 : Fin 2) A B
    Facts₀.concatenates_S800000x128_S800000x128_S800000x256_d1 (ix2 e ⟨k.val, by have := k.isLt; omega⟩) rfl (ix2 e k) fun b => ?_
  match b with
  | ⟨0, _⟩ => rfl
  | ⟨1, _⟩ => rfl

/-- The joined row's last 128 entries are the second piece's row. -/
theorem joined_right (A B : Mat 800000 128) (e : Fin 800000) (k : Fin 128) :
    concatenate S800000x256 1 [⟨S800000x128, A⟩, ⟨S800000x128, B⟩] Facts₀.concatenates_S800000x128_S800000x128_S800000x256_d1
        (ix2 e ⟨128 + k.val, by have := k.isLt; omega⟩) = B (ix2 e k) := by
  refine concatenate_pair_apply_right (t := S800000x256) (s₁ := S800000x128) (s₂ := S800000x128) (1 : Fin 2) A B
    Facts₀.concatenates_S800000x128_S800000x128_S800000x256_d1 (ix2 e ⟨128 + k.val, by have := k.isLt; omega⟩) rfl rfl (ix2 e k)
    (fun b hb => ?_) ?_
  · match b with
    | ⟨0, _⟩ => rfl
    | ⟨1, _⟩ => exact absurd rfl hb
  · show k.val + 128 = 128 + k.val
    omega

/-- The reference's node stage, as printed, is the node stage row by row. -/
theorem ref_nodes (h : Mat 50000 128) (W0 : Mat 128 128) (b0 : Row 128) (W1 : Mat 128 128) (b1 : Row 128)
    (W2 : Mat 128 128) (b2 : Row 128) (Wg : Mat 128 128) (bg : Row 128) :
    mulf (Host.divf (broadcastInDim S50000x128 ![] Facts₀.bcast_S_S50000x128 (constant (F := Ideal) S_ .f32 0x3F800000#32)) (addf (broadcastInDim S50000x128 ![] Facts₀.bcast_S_S50000x128 (constant (F := Ideal) S_ .f32 0x3F800000#32)) (Host.exp (Host.negf (addf (Host.dotGeneral dot_S50000x128_S128x128_S50000x128_1_0_0_1_n_n none (maximumf (addf (Host.dotGeneral dot_S50000x128_S128x128_S50000x128_1_0_0_1_n_n none (maximumf (addf (Host.dotGeneral dot_S50000x128_S128x128_S50000x128_1_0_0_1_n_n none (maximumf (addf (Host.dotGeneral dot_S50000x128_S128x128_S50000x128_1_0_0_1_n_n none h W0) (broadcastInDim S50000x128 ![0, 1] Facts₀.bcast_S1x128_S50000x128_0_1 (broadcastInDim S1x128 ![1] Facts₀.bcast_S128_S1x128_1 b0))) (broadcastInDim S50000x128 ![] Facts₀.bcast_S_S50000x128 (constant (F := Ideal) S_ .f32 0x00000000#32))) W1) (broadcastInDim S50000x128 ![0, 1] Facts₀.bcast_S1x128_S50000x128_0_1 (broadcastInDim S1x128 ![1] Facts₀.bcast_S128_S1x128_1 b1))) (broadcastInDim S50000x128 ![] Facts₀.bcast_S_S50000x128 (constant (F := Ideal) S_ .f32 0x00000000#32))) W2) (broadcastInDim S50000x128 ![0, 1] Facts₀.bcast_S1x128_S50000x128_0_1 (broadcastInDim S1x128 ![1] Facts₀.bcast_S128_S1x128_1 b2))) (broadcastInDim S50000x128 ![] Facts₀.bcast_S_S50000x128 (constant (F := Ideal) S_ .f32 0x00000000#32))) Wg) (broadcastInDim S50000x128 ![0, 1] Facts₀.bcast_S1x128_S50000x128_0_1 (broadcastInDim S1x128 ![1] Facts₀.bcast_S128_S1x128_1 bg))))))) (maximumf (addf (Host.dotGeneral dot_S50000x128_S128x128_S50000x128_1_0_0_1_n_n none (maximumf (addf (Host.dotGeneral dot_S50000x128_S128x128_S50000x128_1_0_0_1_n_n none (maximumf (addf (Host.dotGeneral dot_S50000x128_S128x128_S50000x128_1_0_0_1_n_n none h W0) (broadcastInDim S50000x128 ![0, 1] Facts₀.bcast_S1x128_S50000x128_0_1 (broadcastInDim S1x128 ![1] Facts₀.bcast_S128_S1x128_1 b0))) (broadcastInDim S50000x128 ![] Facts₀.bcast_S_S50000x128 (constant (F := Ideal) S_ .f32 0x00000000#32))) W1) (broadcastInDim S50000x128 ![0, 1] Facts₀.bcast_S1x128_S50000x128_0_1 (broadcastInDim S1x128 ![1] Facts₀.bcast_S128_S1x128_1 b1))) (broadcastInDim S50000x128 ![] Facts₀.bcast_S_S50000x128 (constant (F := Ideal) S_ .f32 0x00000000#32))) W2) (broadcastInDim S50000x128 ![0, 1] Facts₀.bcast_S1x128_S50000x128_0_1 (broadcastInDim S1x128 ![1] Facts₀.bcast_S128_S1x128_1 b2))) (broadcastInDim S50000x128 ![] Facts₀.bcast_S_S50000x128 (constant (F := Ideal) S_ .f32 0x00000000#32)))
      = nodeArr h W0 b0 W1 b1 W2 b2 Wg bg := by
  rw [host_layer dot_S50000x128_S128x128_S50000x128_1_0_0_1_n_n rfl rfl rfl rfl rfl rfl Facts₀.bcast_S128_S1x128_1
    Facts₀.bcast_S1x128_S50000x128_0_1 Facts₀.bcast_S_S50000x128 h W0 b0]
  rw [host_layer dot_S50000x128_S128x128_S50000x128_1_0_0_1_n_n rfl rfl rfl rfl rfl rfl Facts₀.bcast_S128_S1x128_1
    Facts₀.bcast_S1x128_S50000x128_0_1 Facts₀.bcast_S_S50000x128 _ W1 b1]
  rw [host_layer dot_S50000x128_S128x128_S50000x128_1_0_0_1_n_n rfl rfl rfl rfl rfl rfl Facts₀.bcast_S128_S1x128_1
    Facts₀.bcast_S1x128_S50000x128_0_1 Facts₀.bcast_S_S50000x128 _ W2 b2]
  rw [host_gate dot_S50000x128_S128x128_S50000x128_1_0_0_1_n_n rfl rfl rfl rfl rfl rfl Facts₀.bcast_S128_S1x128_1
    Facts₀.bcast_S1x128_S50000x128_0_1 Facts₀.bcast_S_S50000x128 _ Wg bg]
  rfl

/-- The first readout layer of a joined row: the two halves' products summed, plus the bias. -/
theorem first_layer_row (A B : Mat 800000 128) (R0 : Mat 256 128) (r0 : Row 128) (e : Fin 800000) :
    affine R0 r0 (rowOf (concatenate S800000x256 1 [⟨S800000x128, A⟩, ⟨S800000x128, B⟩] Facts₀.concatenates_S800000x128_S800000x128_S800000x256_d1) e)
      = pairAffine (topHalf R0) (botHalf R0) r0 (rowOf A e) (rowOf B e) :=
  affine_append R0 r0 (rowOf A e) (rowOf B e) (rowOf (concatenate S800000x256 1 [⟨S800000x128, A⟩, ⟨S800000x128, B⟩] Facts₀.concatenates_S800000x128_S800000x128_S800000x256_d1) e)
    (fun k => joined_left A B e k) (fun k => joined_right A B e k)

/-- The reference's readout stage, as printed, is the readout stage row by row, the first weight matrix as its halves. -/
theorem ref_readout (A B : Mat 800000 128) (R0 : Mat 256 128) (r0 : Row 128) (R1 : Mat 128 64) (r1 : Row 64)
    (R2 : Mat 64 2) (r2 : Row 2) :
    addf (Host.dotGeneral dot_S800000x64_S64x2_S800000x2_1_0_0_1_n_n none (maximumf (addf (Host.dotGeneral dot_S800000x128_S128x64_S800000x64_1_0_0_1_n_n none (maximumf (addf (Host.dotGeneral dot_S800000x256_S256x128_S800000x128_1_0_0_1_n_n none (concatenate S800000x256 1 [⟨S800000x128, A⟩, ⟨S800000x128, B⟩] Facts₀.concatenates_S800000x128_S800000x128_S800000x256_d1) R0) (broadcastInDim S800000x128 ![0, 1] Facts₀.bcast_S1x128_S800000x128_0_1 (broadcastInDim S1x128 ![1] Facts₀.bcast_S128_S1x128_1 r0))) (broadcastInDim S800000x128 ![] Facts₀.bcast_S_S800000x128 (constant (F := Ideal) S_ .f32 0x00000000#32))) R1) (broadcastInDim S800000x64 ![0, 1] Facts₀.bcast_S1x64_S800000x64_0_1 (broadcastInDim S1x64 ![1] Facts₀.bcast_S64_S1x64_1 r1))) (broadcastInDim S800000x64 ![] Facts₀.bcast_S_S800000x64 (constant (F := Ideal) S_ .f32 0x00000000#32))) R2) (broadcastInDim S800000x2 ![0, 1] Facts₀.bcast_S1x2_S800000x2_0_1 (broadcastInDim S1x2 ![1] Facts₀.bcast_S2_S1x2_1 r2))
      = readArr A B (topHalf R0) (botHalf R0) r0 R1 r1 R2 r2 := by
  rw [host_layer dot_S800000x256_S256x128_S800000x128_1_0_0_1_n_n rfl rfl rfl rfl rfl rfl Facts₀.bcast_S128_S1x128_1
    Facts₀.bcast_S1x128_S800000x128_0_1 Facts₀.bcast_S_S800000x128 _ R0 r0]
  rw [host_layer dot_S800000x128_S128x64_S800000x64_1_0_0_1_n_n rfl rfl rfl rfl rfl rfl Facts₀.bcast_S64_S1x64_1
    Facts₀.bcast_S1x64_S800000x64_0_1 Facts₀.bcast_S_S800000x64 _ R1 r1]
  rw [host_affine dot_S800000x64_S64x2_S800000x2_1_0_0_1_n_n rfl rfl rfl rfl rfl rfl Facts₀.bcast_S2_S1x2_1
    Facts₀.bcast_S1x2_S800000x2_0_1 _ R2 r2]
  -- both sides row by row; the first readout layer of the joined row split at 128
  funext i
  show affine R2 r2 (relu (affine R1 r1 (relu (affine R0 r0 (rowOf (concatenate S800000x256 1 [⟨S800000x128, A⟩, ⟨S800000x128, B⟩] Facts₀.concatenates_S800000x128_S800000x128_S800000x256_d1) (i 0)))))) (i 1) = _
  rw [first_layer_row A B R0 r0 (i 0)]
  rfl

/-- The reference's result array as one function of the launched arguments. -/
theorem result_eq (m : (ℓ : Loc nD τ sig) → Buf (Elt Ideal) ℓ) (c : Dev nD) :
    Value.res_main_v54 (F := Ideal) m c
      = edgeScores (pick (m ((c.tc : Thread nD τ).loc main_arg1))) (pick (m ((c.tc : Thread nD τ).loc main_arg2))) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold Value.res_main_v54
  refine (ref_readout _ _ (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))).trans ?_
  rw [ref_nodes (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))]
  rfl

end Cert.ReferenceIdeal.RefValue

end
-- ==== Proof.lean ====
/-
  The certificate of the edge classifier: a node kernel, a host gather and a readout kernel against a plain reference.

  Both programs compute, at the ideal instance, the same function of the arguments (`Spec.edgeScores`): the node
  stage  σ(x·Wg + bg) · x  with  x = relu(relu(relu(h·W0 + b0)·W1 + b1)·W2 + b2)  on every node row, the rows of the
  source and destination nodes picked per edge, and the readout  relu(relu([xs, xd]·R0 + r0)·R1 + r1)·R2 + r2 .
  The kernel program narrows operands to bf16 before each product (the identity on the extended reals), tiles the rows
  (a dense layer acts on each row by itself), uses the logistic function where the reference spells 1 / (1 + e^(−t))
  (one function by definition), and multiplies the two halves of R0 separately where the reference multiplies the joined
  row (a sum over 256 positions split at 128). No step needs the inputs to be finite.
  The three frames are the generated ones (the reference's is its generated run with the result dropped); the ideal pass
  rewrote nothing, so `preserves` is trivial.
-/
import proofs.«133304_j80633716015170_1_alg».proof.Defs
import proofs.«133304_j80633716015170_1_alg».proof.Proof.Gen.Kernel
import proofs.«133304_j80633716015170_1_alg».proof.Proof.Gen.Kernel.Frame
import proofs.«133304_j80633716015170_1_alg».proof.Proof.Gen.KernelIdeal
import proofs.«133304_j80633716015170_1_alg».proof.Proof.Gen.KernelIdeal.Frame
import proofs.«133304_j80633716015170_1_alg».proof.Proof.Gen.ReferenceIdeal
import proofs.«133304_j80633716015170_1_alg».proof.Proof.Gen.Pre_finite_inputs
import proofs.«133304_j80633716015170_1_alg».proof.Proof.Gen.ReferenceIdeal.Run
import proofs.«133304_j80633716015170_1_alg».proof.Proof.KernelFinal
import proofs.«133304_j80633716015170_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs pick the source and destination rows by the same gather through the same wrapped node numbers. -/
theorem pick_eq : Cert.ReferenceIdeal.RefValue.pick = Cert.KernelIdeal.Whole.pick := rfl

/-- From memories agreeing on the arguments both programs end with `Spec.edgeScores` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16⟩ := hagree c
  rw [Cert.ReferenceIdeal.RefValue.result_eq, pick_eq, e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
